-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512x256 : Shape := ⟨2, ![512, 256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S10000x512 .f32) (main_arg1 : FVec F S10000x10000 .f32) (main_arg2 : FVec F S512x512 .f32) (main_arg3 : FVec F S512x256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512x256 : Shape := ⟨2, ![512, 256]⟩
abbrev S10000x256 : Shape := ⟨2, ![10000, 256]⟩
abbrev S256x10000 : Shape := ⟨2, ![256, 10000]⟩
abbrev S400x512 : Shape := ⟨2, ![400, 512]⟩
abbrev S400x10000 : Shape := ⟨2, ![400, 10000]⟩
abbrev S400x256 : Shape := ⟨2, ![400, 256]⟩

abbrev nBuf : Space → Nat
  | .hbm => 10
  | .vmem => 23
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512x256, .f32⟩
  | .hbm, ⟨4, _⟩ => ⟨S512x256, .bf16⟩
  | .hbm, ⟨5, _⟩ => ⟨S10000x512, .bf16⟩
  | .hbm, ⟨6, _⟩ => ⟨S10000x256, .bf16⟩
  | .hbm, ⟨7, _⟩ => ⟨S10000x256, .bf16⟩
  | .hbm, ⟨8, _⟩ => ⟨S256x10000, .bf16⟩
  | .hbm, ⟨9, _⟩ => ⟨S10000x10000, .f32⟩
  | .local _ .vmem, ⟨0, _⟩ => ⟨S400x512, .f32⟩
  | .local _ .vmem, ⟨1, _⟩ => ⟨S400x512, .f32⟩
  | .local _ .vmem, ⟨2, _⟩ => ⟨S512x512, .f32⟩
  | .local _ .vmem, ⟨3, _⟩ => ⟨S400x512, .bf16⟩
  | .local _ .vmem, ⟨4, _⟩ => ⟨S400x512, .bf16⟩
  | .local _ .vmem, ⟨5, _⟩ => ⟨S400x10000, .f32⟩
  | .local _ .vmem, ⟨6, _⟩ => ⟨S400x10000, .f32⟩
  | .local _ .vmem, ⟨7, _⟩ => ⟨S10000x512, .bf16⟩
  | .local _ .vmem, ⟨8, _⟩ => ⟨S512x256, .bf16⟩
  | .local _ .vmem, ⟨9, _⟩ => ⟨S400x256, .bf16⟩
  | .local _ .vmem, ⟨10, _⟩ => ⟨S400x256, .bf16⟩
  | .local _ .vmem, ⟨11, _⟩ => ⟨S400x10000, .f32⟩
  | .local _ .vmem, ⟨12, _⟩ => ⟨S400x10000, .f32⟩
  | .local _ .vmem, ⟨13, _⟩ => ⟨S10000x256, .bf16⟩
  | .local _ .vmem, ⟨14, _⟩ => ⟨S400x256, .bf16⟩
  | .local _ .vmem, ⟨15, _⟩ => ⟨S400x256, .bf16⟩
  | .local _ .vmem, ⟨16, _⟩ => ⟨S10000x256, .bf16⟩
  | .local _ .vmem, ⟨17, _⟩ => ⟨S256x10000, .bf16⟩
  | .local _ .vmem, ⟨18, _⟩ => ⟨S400x256, .bf16⟩
  | .local _ .vmem, ⟨19, _⟩ => ⟨S400x256, .bf16⟩
  | .local _ .vmem, ⟨20, _⟩ => ⟨S256x10000, .bf16⟩
  | .local _ .vmem, ⟨21, _⟩ => ⟨S400x10000, .f32⟩
  | .local _ .vmem, ⟨22, _⟩ => ⟨S400x10000, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S10000x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S256x10000 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x10000 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x10000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bitsLt_bf16_f32 : FTy.bits .bf16 < FTy.bits .f32
  inb_S400x512_S400x512_0_0 : ∀ a, (![0, 0] : Fin 2 → Nat) a + S400x512.size a ≤ S400x512.size a
  h_S400x512 : 0 < S400x512.numel
  inb_S512x512_S512x512_0_0 : ∀ a, (![0, 0] : Fin 2 → Nat) a + S512x512.size a ≤ S512x512.size a
  h_S512x512 : 0 < S512x512.numel
  packedbf16_S400x512_S400x512_0_0 : (Rect.unit (s := S400x512) ![0, 0] S400x512.size inb_S400x512_S400x512_0_0).PackedRows (EltTy.packing .bf16)
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  transposes_S10000x256_p1_0_S256x10000 : S10000x256.Transposes [1, 0] S256x10000
  inb_S256x10000_S256x10000_0_0 : ∀ a, (![0, 0] : Fin 2 → Nat) a + S256x10000.size a ≤ S256x10000.size a
  h_S256x10000 : 0 < S256x10000.numel
  packedbf16_S256x10000_S256x10000_0_0 : (Rect.unit (s := S256x10000) ![0, 0] S256x10000.size inb_S256x10000_S256x10000_0_0).PackedRows (EltTy.packing .bf16)
  shapeCasts_S400x256_S400x256 : S400x256.ShapeCasts S400x256
  shapeCasts_S256x10000_S256x10000 : S256x10000.ShapeCasts S256x10000
  dot_S400x512_S512x512_S400x512_1_0_0_1_n_n_wf : DotDims.WF S400x512 S512x512 S400x512 [1] [0] [0] [1] [] []
  dot_S400x10000_S10000x512_S400x512_1_0_0_1_n_n_wf : DotDims.WF S400x10000 S10000x512 S400x512 [1] [0] [0] [1] [] []
  dot_S400x512_S512x256_S400x256_1_0_0_1_n_n_wf : DotDims.WF S400x512 S512x256 S400x256 [1] [0] [0] [1] [] []
  dot_S400x10000_S10000x256_S400x256_1_0_0_1_n_n_wf : DotDims.WF S400x10000 S10000x256 S400x256 [1] [0] [0] [1] [] []
  dot_S400x256_S256x10000_S400x10000_1_0_0_1_n_n_wf : DotDims.WF S400x256 S256x10000 S400x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x512.size a ≤ S10000x512.size a
  hwx0_0 : ∀ i : grid0.Coords, EltTy.bits .f32 = 32 ∨ (Rect.block (s := S10000x512) S400x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x512.size a ≤ S10000x512.size a
  hwx0_2 : ∀ i : grid0.Coords, EltTy.bits .bf16 = 32 ∨ (Rect.block (s := S10000x512) S400x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .bf16 = 32 ∨ (Rect.block (s := S512x256) S512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S10000x256.size a
  hwx1_3 : ∀ i : grid1.Coords, EltTy.bits .bf16 = 32 ∨ (Rect.block (s := S10000x256) S400x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x256.size a ≤ S10000x256.size a
  hwx2_2 : ∀ i : grid2.Coords, EltTy.bits .bf16 = 32 ∨ (Rect.block (s := S10000x256) S400x256.size (cc2_transform_2 i) (hinb2_2 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S10000x256.size a
  hwx3_0 : ∀ i : grid3.Coords, EltTy.bits .bf16 = 32 ∨ (Rect.block (s := S10000x256) S10000x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x10000.size a ≤ S256x10000.size a
  hwx3_1 : ∀ i : grid3.Coords, EltTy.bits .bf16 = 32 ∨ (Rect.block (s := S256x10000) S256x10000.size (cc3_transform_1 i) (hinb3_1 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x256.size a ≤ S10000x256.size a
  hwx4_0 : ∀ i : grid4.Coords, EltTy.bits .bf16 = 32 ∨ (Rect.block (s := S10000x256) S400x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x10000.size a ≤ S256x10000.size a
  hwx4_1 : ∀ i : grid4.Coords, EltTy.bits .bf16 = 32 ∨ (Rect.block (s := S256x10000) S256x10000.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x10000.size a ≤ S10000x10000.size a
  hwx4_2 : ∀ i : grid4.Coords, EltTy.bits .f32 = 32 ∨ (Rect.block (s := S10000x10000) S400x10000.size (cc4_transform_2 i) (hinb4_2 i)).WholeWords (EltTy.packing .f32)

variable [Facts₀]

def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x256_S400x256_1_0_0_1_n_n : DotDims S400x512 S512x256 S400x256 where
  lhsContracting := [1]
  rhsContracting := [0]
  lhsNonContracting := [0]
  rhsNonContracting := [1]
  lhsBatch := []
  rhsBatch := []
  wf := dot_S400x512_S512x256_S400x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x10000_S400x10000_1_0_0_1_n_n : DotDims S400x256 S256x10000 S400x10000 where
  lhsContracting := [1]
  rhsContracting := [0]
  lhsNonContracting := [0]
  rhsNonContracting := [1]
  lhsBatch := []
  rhsBatch := []
  wf := dot_S400x256_S256x10000_S400x10000_1_0_0_1_n_n_wf

abbrev win0_0 : Pipeline.Window sig grid0 :=
  Pipeline.Window.ofSpec (Memref.whole main_arg0) S400x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S400x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S400x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v2) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v3) S400x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v3) S10000x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_call0_v4) S256x10000.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_call0_v3) S400x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v4) S256x10000.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v0) S400x10000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512x256 : Shape := ⟨2, ![512, 256]⟩
abbrev S_ : Shape := ⟨0, ![]⟩
abbrev S10000x256 : Shape := ⟨2, ![10000, 256]⟩
abbrev S256x10000 : Shape := ⟨2, ![256, 10000]⟩

abbrev nBuf : Space → Nat
  | .hbm => 13
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512x256, .f32⟩
  | .hbm, ⟨4, _⟩ => ⟨S10000x512, .f32⟩
  | .hbm, ⟨5, _⟩ => ⟨S10000x512, .f32⟩
  | .hbm, ⟨6, _⟩ => ⟨S_, .f32⟩
  | .hbm, ⟨7, _⟩ => ⟨S10000x512, .f32⟩
  | .hbm, ⟨8, _⟩ => ⟨S10000x512, .f32⟩
  | .hbm, ⟨9, _⟩ => ⟨S10000x256, .f32⟩
  | .hbm, ⟨10, _⟩ => ⟨S10000x256, .f32⟩
  | .hbm, ⟨11, _⟩ => ⟨S256x10000, .f32⟩
  | .hbm, ⟨12, _⟩ => ⟨S10000x10000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S10000x512 : S_.BroadcastsInDim S10000x512 (![] : Fin 0 → Fin S10000x512.rank)
  transposes_S10000x256_S256x10000_1_0 : S10000x256.Transposes [1, 0] S256x10000
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []
  dot_S10000x512_S512x256_S10000x256_1_0_0_1_n_n_wf : DotDims.WF S10000x512 S512x256 S10000x256 [1] [0] [0] [1] [] []
  dot_S10000x10000_S10000x256_S10000x256_1_0_0_1_n_n_wf : DotDims.WF S10000x10000 S10000x256 S10000x256 [1] [0] [0] [1] [] []
  dot_S10000x256_S256x10000_S10000x10000_1_0_0_1_n_n_wf : DotDims.WF S10000x256 S256x10000 S10000x10000 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x10000_S10000x10000_1_0_0_1_n_n : DotDims S10000x256 S256x10000 S10000x10000 where
  lhsContracting := [1]
  rhsContracting := [0]
  lhsNonContracting := [0]
  rhsNonContracting := [1]
  lhsBatch := []
  rhsBatch := []
  wf := dot_S10000x256_S256x10000_S10000x10000_1_0_0_1_n_n_wf

class Facts : Prop extends Facts₀ where

variable [Facts]
-- ==== Proof.MatSpec.lean ====
/-
  The mathematics shared by both programs, over extended reals and with no program in sight.

  A plain matrix product `mm A B` of an M×K by a K×N array is, entry (i, j), the sum over k of A(i,k)·B(k,j).
  Both a vector-unit matrix product into a zero accumulator and a host contraction, when their dimension numbers
  are the plain ones (contract the left operand's axis 1 with the right operand's axis 0, no batch axis), are this
  `mm`: their contraction index is a one-axis index, re-indexed here by its single coordinate.
  A block of R consecutive rows of a product is the product of that block of rows of the left factor with the
  whole right factor; a transposition read at (i, j) is the operand at (j, i).
-/
import Idealize.ShloMosaic.PureOps.Ideal.Laws
import Idealize.ShloMosaic.Lib.ValueIdx
import Idealize.ShloMosaic.Lib.Pipeline.Value

noncomputable section

namespace Cert.MatSpec

open Idealize.ShloMosaic Idealize.ShloMosaic.ValueIdx

/-- The plain matrix product over the extended reals: entry (i, j) is the sum over k of A(i,k)·B(k,j). -/
def mm {M K N : Nat} (A : (⟨2, ![M, K]⟩ : Shape).Idx → EReal) (B : (⟨2, ![K, N]⟩ : Shape).Idx → EReal) :
    (⟨2, ![M, N]⟩ : Shape).Idx → EReal :=
  fun i => ∑ k : Fin K, A (ix2 (n0 := M) (n1 := K) (i 0) k) * B (ix2 (n0 := K) (n1 := N) k (i 1))

/-- The transposed array: entry (i, j) is the operand's entry (j, i). -/
def tr {M N : Nat} (A : (⟨2, ![M, N]⟩ : Shape).Idx → EReal) : (⟨2, ![N, M]⟩ : Shape).Idx → EReal :=
  fun j => A (ix2 (n0 := M) (n1 := N) (j 1) (j 0))

/-- The entrywise maximum with one fixed extended real `z` (a rectifier when `z` is zero). -/
def clampBelow {M N : Nat} (z : EReal) (A : (⟨2, ![M, N]⟩ : Shape).Idx → EReal) : (⟨2, ![M, N]⟩ : Shape).Idx → EReal :=
  fun i => max (A i) z

/-- Rows `b·R … b·R + R − 1` of an array of `M` rows, as an array of `R` rows. -/
def rowBlock {M N : Nat} (R b : Nat) (hb : b * R + R ≤ M) (A : (⟨2, ![M, N]⟩ : Shape).Idx → EReal) :
    (⟨2, ![R, N]⟩ : Shape).Idx → EReal :=
  fun y => A (ix2 (n0 := M) (n1 := N) ⟨b * R + (y 0).val, by have h : (y 0).val < R := (y 0).isLt; omega⟩ (y 1))

/-- A block of rows of a product is the product of that block of rows with the whole right factor. -/
theorem mm_rowBlock {M K N : Nat} (R b : Nat) (hb : b * R + R ≤ M)
    (A : (⟨2, ![M, K]⟩ : Shape).Idx → EReal) (B : (⟨2, ![K, N]⟩ : Shape).Idx → EReal) :
    mm (rowBlock R b hb A) B = rowBlock R b hb (mm A B) := rfl

/-- Clamping commutes with taking a block of rows. -/
theorem clampBelow_rowBlock {M N : Nat} (R b : Nat) (hb : b * R + R ≤ M) (z : EReal)
    (A : (⟨2, ![M, N]⟩ : Shape).Idx → EReal) :
    clampBelow z (rowBlock R b hb A) = rowBlock R b hb (clampBelow z A) := rfl

/-- With the plain dimension numbers the sum over the one-axis contraction index, of the operands at the
    contraction's operand indices, is the sum over `k` of left(i,k)·right(k,j). -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) (j 0) k := funext fun a => Fin.ext (by
    match a with
    | ⟨0, _⟩ => rfl
    | ⟨1, _⟩ => exact ((DotDims.plain M K N).lhsIdx_val_of_single rfl j _).trans hk)
  have er : (DotDims.plain M K N).rhsIdx j ((contrEquiv1 (DotDims.plain M K N) K rfl rfl).symm k)
      = ix2 (n0 := K) (n1 := N) k (j 1) := funext fun a => Fin.ext (by
    match a with
    | ⟨0, _⟩ => exact ((DotDims.plain M K N).rhsIdx_val_of_single rfl j _).trans hk
    | ⟨1, _⟩ => rfl)
  rw [el, er]

/-- A vector-unit matrix product with plain dimension numbers into the zero accumulator is `mm`, whatever the
    operands' float formats. -/
theorem matmul_zero_of_plain {M K N : Nat} {φ₁ φ₂ : FTy}
    (d : DotDims ⟨2, ![M, K]⟩ ⟨2, ![K, N]⟩ ⟨2, ![M, N]⟩) (hd : d = DotDims.plain M K N) (prec : Option ContractPrecision)
    (l : FVec Ideal ⟨2, ![M, K]⟩ φ₁) (r : FVec Ideal ⟨2, ![K, N]⟩ φ₂) :
    matmul (F := Ideal) d prec l r (constant (F := Ideal) ⟨2, ![M, N]⟩ .f32 0x00000000#32) = mm l r := by
  subst hd
  funext j
  exact (Ideal.matmul_constant_zero_apply _ prec l r j).trans (plain_contr_sum M K N l r j)

/-- A host contraction with plain dimension numbers is `mm`, whatever the operands' float formats. -/
theorem dotGeneral_of_plain {M K N : Nat} {φ₁ φ₂ : FTy}
    (d : DotDims ⟨2, ![M, K]⟩ ⟨2, ![K, N]⟩ ⟨2, ![M, N]⟩) (hd : d = DotDims.plain M K N) (prec : Option ContractPrecision)
    (l : FVec Ideal ⟨2, ![M, K]⟩ φ₁) (r : FVec Ideal ⟨2, ![K, N]⟩ φ₂) :
    Host.dotGeneral (F := Ideal) d prec l r = mm l r := by
  subst hd
  funext j
  exact (Ideal.dotGeneral_apply _ prec .single l r j).trans (plain_contr_sum M K N l r j)

/-- A transposition of a rank-two array by the permutation [1, 0] is `tr`. -/
theorem transpose_eq_tr {M N : Nat} (x : (⟨2, ![M, N]⟩ : Shape).Idx → EReal)
    (h : (⟨2, ![M, N]⟩ : Shape).Transposes [1, 0] ⟨2, ![N, M]⟩) :
    transpose ⟨2, ![N, M]⟩ [1, 0] x h = tr x := by
  funext j
  refine transpose_apply [1, 0] x h j (ix2 (n0 := M) (n1 := N) (j 1) (j 0)) fun b => ?_
  match b with
  | ⟨0, _⟩ => rfl
  | ⟨1, _⟩ => rfl

end Cert.MatSpec

end
-- ==== Proof.Region0.lean ====
/-
  Region 0 (the first product, u = x·W1, written 400 rows at a time over 25 grid points).
  At grid point t the body reads rows 400·t … 400·t+399 of x and the whole of W1 and stores their plain product;
  a block of rows of a product is the product of that block of rows, and the 25 blocks tile the 10000 rows, so
  the array the region leaves is the whole product of the arrays it found.
-/
import proofs.«164917_g64579128262697_cont_9to1_m_969_6_alg».proof.Proof.Gen.KernelIdeal.Frame
import proofs.«164917_g64579128262697_cont_9to1_m_969_6_alg».proof.Proof.MatSpec

set_option maxRecDepth 16384

noncomputable section

namespace Cert.KernelIdeal.Region0

open Cert.KernelIdeal Cert.KernelIdeal.Gen Cert.MatSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the region finds: x, W1; and the array it writes, u. -/
abbrev xArr (c : Dev nD) : (⟨2, ![10000, 512]⟩ : Shape).Idx → EReal := V c main_arg0
abbrev wArr (c : Dev nD) : (⟨2, ![512, 512]⟩ : Shape).Idx → EReal := V c main_arg2

theorem hz : (![0, 0] : Fin 2 → Nat) = fun _ => 0 := funext fun a => by fin_cases a <;> rfl

/-- The body's stored value is the plain product of its two loaded blocks (a change of float format is the
    identity on extended reals). -/
theorem pay_eq (x0 : Vec Ideal S400x512 .f32) (x1 : Vec Ideal S512x512 .f32) :
    k0_pay1 (F := Ideal) x0 x1 = mm x0 x1 :=
  matmul_zero_of_plain (φ₁ := .bf16) (φ₂ := .bf16) dot_S400x512_S512x512_S400x512_1_0_0_1_n_n rfl none x0 x1

/-- The printed index maps over the 25 points: the row-blocked windows sit at block row t, column block 0; the
    resident right factor at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val * 400 + 400 ≤ 10000 := by
  have h : t.val < 25 := t.isLt
  omega

/-- The left factor's block at point t is rows 400·t … of x. -/
theorem blk_x (c : Dev nD) (t : Fin cfg0.N) :
    (iblk0 V c 0 t : (⟨2, ![400, 512]⟩ : Shape).Idx → EReal) = rowBlock 400 t.val (t_lt t) (xArr V c) := by
  obtain ⟨e0, e1, -, -, -, -⟩ := idx_facts t
  funext y
  show V c main_arg0 (((cfg0.win 0).blk t).view.emb y) = V c main_arg0 (ix2 (n0 := 10000) (n1 := 512) ⟨t.val * 400 + (y 0).val, _⟩ (y 1))
  refine congrArg (V c main_arg0) (funext fun a => Fin.ext ?_)
  match a with
  | ⟨0, _⟩ => show win0_0.index t (0 : Fin 2) * 400 + 1 * (y 0).val = t.val * 400 + (y 0).val; omega
  | ⟨1, _⟩ => show win0_0.index t (1 : Fin 2) * 512 + 1 * (y 1).val = (y 1).val; omega

/-- The right factor's block at every point is the whole of W1. -/
theorem blk_w (c : Dev nD) (t : Fin cfg0.N) :
    (iblk0 V c 1 t : (⟨2, ![512, 512]⟩ : Shape).Idx → EReal) = wArr V c := by
  obtain ⟨-, -, e2, e3, -, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The output window's block at point t, read off any array of u's shape, is rows 400·t … of that array. -/
theorem read_out (t : Fin cfg0.N) (G : (⟨2, ![10000, 512]⟩ : Shape).Idx → EReal) :
    (((cfg0.win 2).blk t).view.read (Elt Ideal) G : (⟨2, ![400, 512]⟩ : Shape).Idx → EReal) = rowBlock 400 t.val (t_lt t) G := by
  obtain ⟨-, -, -, -, e4, e5⟩ := idx_facts t
  funext y
  show G (((cfg0.win 2).blk t).view.emb y) = G (ix2 (n0 := 10000) (n1 := 512) ⟨t.val * 400 + (y 0).val, _⟩ (y 1))
  refine congrArg G (funext fun a => Fin.ext ?_)
  match a with
  | ⟨0, _⟩ => show win0_2.index t (0 : Fin 2) * 400 + 1 * (y 0).val = t.val * 400 + (y 0).val; omega
  | ⟨1, _⟩ => show win0_2.index t (1 : Fin 2) * 512 + 1 * (y 1).val = (y 1).val; omega

/-- What point t writes back is block t of the whole product. -/
theorem flushed_eq (c : Dev nD) (t : Fin cfg0.N) :
    (dat0 V c).flushed 2 t = ((cfg0.win 2).blk t).view.read (Elt Ideal) (mm (xArr V c) (wArr V c)) := by
  show (cfg0.win 2).cut (grid0.coords t) ((dat0 V c).after 2 t) = _
  rw [after0_2]
  unfold out0_2
  rw [View.canon_unit_zero hz]
  simp only [View.ld_unit_zero (S := S400x512) hz, View.ld_unit_zero (S := S512x512) hz]
  rw [pay_eq]
  show mm (iblk0 V c 0 t : (⟨2, ![400, 512]⟩ : Shape).Idx → EReal) (iblk0 V c 1 t : (⟨2, ![512, 512]⟩ : Shape).Idx → EReal) = _
  rw [blk_x V c t, blk_w V c t, mm_rowBlock]
  exact (read_out t _).symm

/-- An index of u is in point t's block iff each coordinate is in the block's range on its axis. -/
theorem mem_blk (t : Fin cfg0.N) (i : S10000x512.Idx) :
    i ∈ ((cfg0.win 2).blk t).view.set ↔ ∀ a : Fin 2, win0_2.index t a * S400x512.size a ≤ (i a).val ∧ (i a).val < win0_2.index t a * S400x512.size a + S400x512.size a := by
  show i ∈ ((View.whole main_call0_v1).slice (win0_2.rect t)).set ↔ _
  rw [View.set_slice_whole, Rect.mem_set_unit]
  exact Iff.rfl

/-- Every row of u lies in the block of the point that is the row's number divided by 400. -/
theorem cover (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  let t : Fin cfg0.N := ⟨(i 0).val / 400, by show (i 0).val / 400 < 25; omega⟩
  obtain ⟨-, -, -, -, e4, e5⟩ := idx_facts t
  have ht : t.val = (i 0).val / 400 := rfl
  refine ⟨t, flush0_2 t, ?_⟩
  rw [mem_blk]
  intro a
  match a with
  | ⟨0, _⟩ => show win0_2.index t (0 : Fin 2) * 400 ≤ (i 0).val ∧ (i 0).val < win0_2.index t (0 : Fin 2) * 400 + 400; omega
  | ⟨1, _⟩ => show win0_2.index t (1 : Fin 2) * 512 ≤ (i 1).val ∧ (i 1).val < win0_2.index t (1 : Fin 2) * 512 + 512; omega

/-- The array the region leaves in u is the whole product of the x and W1 it found. -/
theorem arr_u (c : Dev nD) : (dat0 V c).arrAt 2 cfg0.N = mm (xArr V c) (wArr V c) :=
  (dat0 V c).arrAt_eq_of_cover 2 (mm (xArr V c) (wArr V c)) (fun t _ => flushed_eq V c t) cover

end Cert.KernelIdeal.Region0

end
-- ==== Proof.Region1.lean ====
/-
  Region 1 (the first graph convolution fused with the second layer's weight, m = (adj·u)⁺·W2, written 400 rows
  at a time over 25 grid points).
  At grid point t the body reads rows 400·t … 400·t+399 of adj and the whole of u and of W2's copy, and stores
  ((block·u) clamped below by the zero word)·W2. A block of rows of a product is the product of that block of
  rows, and clamping is entrywise, so the stored value is rows 400·t … of (adj·u)⁺·W2; the 25 blocks tile the
  10000 rows.
-/
import proofs.«164917_g64579128262697_cont_9to1_m_969_6_alg».proof.Proof.Gen.KernelIdeal.Frame
import proofs.«164917_g64579128262697_cont_9to1_m_969_6_alg».proof.Proof.MatSpec

set_option maxRecDepth 16384

noncomputable section

namespace Cert.KernelIdeal.Region1

open Cert.KernelIdeal Cert.KernelIdeal.Gen Cert.MatSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The rectifier's floor: the zero word of the 32-bit format, as an extended real (not evaluated). -/
abbrev z0 : EReal := Ideal.ofBits .f32 0x00000000#32

/-- The arrays the region finds: adj, u, and the copy of W2. -/
abbrev adjArr (c : Dev nD) : (⟨2, ![10000, 10000]⟩ : Shape).Idx → EReal := V c main_arg1
abbrev uArr (c : Dev nD) : (⟨2, ![10000, 512]⟩ : Shape).Idx → EReal := V c main_call0_v1
abbrev w2Arr (c : Dev nD) : (⟨2, ![512, 256]⟩ : Shape).Idx → EReal := V c main_call0_v0

theorem hz : (![0, 0] : Fin 2 → Nat) = fun _ => 0 := funext fun a => by fin_cases a <;> rfl

/-- The body's stored value: the first product, clamped below by the zero word, times the second right factor
    (changes of float format and casts to the same shape are identities). -/
theorem pay_eq (x0 : Vec Ideal S400x10000 .f32) (x1 : Vec Ideal S10000x512 .bf16) (x2 : Vec Ideal S512x256 .bf16) :
    k1_pay1 (F := Ideal) x0 x1 x2 = mm (clampBelow z0 (mm x0 x1)) x2 := by
  show matmul (F := Ideal) (φ₁ := .bf16) (φ₂ := .bf16) dot_S400x512_S512x256_S400x256_1_0_0_1_n_n none
    (maximumf (F := Ideal) (φ := .f32)
      (matmul (F := Ideal) (φ₁ := .bf16) (φ₂ := .bf16) dot_S400x10000_S10000x512_S400x512_1_0_0_1_n_n none x0
        (shapeCast S10000x512 x1 shapeCasts_S10000x512_S10000x512) (constant (F := Ideal) S400x512 .f32 0x00000000#32))
      (broadcast S400x512 (Scalar.ofBits (F := Ideal) .f32 0x00000000#32)))
    (shapeCast S512x256 x2 shapeCasts_S512x256_S512x256) (constant (F := Ideal) S400x256 .f32 0x00000000#32) = _
  rw [shapeCast_self, shapeCast_self,
    matmul_zero_of_plain (φ₁ := .bf16) (φ₂ := .bf16) dot_S400x10000_S10000x512_S400x512_1_0_0_1_n_n rfl none x0 x1]
  exact matmul_zero_of_plain (φ₁ := .bf16) (φ₂ := .bf16) dot_S400x512_S512x256_S400x256_1_0_0_1_n_n rfl none _ x2

/-- The printed index maps over the 25 points. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t_lt (t : Fin cfg1.N) : t.val * 400 + 400 ≤ 10000 := by
  have h : t.val < 25 := t.isLt
  omega

/-- The first left factor's block at point t is rows 400·t … of adj. -/
theorem blk_adj (c : Dev nD) (t : Fin cfg1.N) :
    (iblk1 V c 0 t : (⟨2, ![400, 10000]⟩ : Shape).Idx → EReal) = rowBlock 400 t.val (t_lt t) (adjArr V c) := by
  obtain ⟨e0, e1, -, -, -, -, -, -⟩ := idx_facts t
  funext y
  show V c main_arg1 (((cfg1.win 0).blk t).view.emb y) = V c main_arg1 (ix2 (n0 := 10000) (n1 := 10000) ⟨t.val * 400 + (y 0).val, _⟩ (y 1))
  refine congrArg (V c main_arg1) (funext fun a => Fin.ext ?_)
  match a with
  | ⟨0, _⟩ => show win1_0.index t (0 : Fin 2) * 400 + 1 * (y 0).val = t.val * 400 + (y 0).val; omega
  | ⟨1, _⟩ => show win1_0.index t (1 : Fin 2) * 10000 + 1 * (y 1).val = (y 1).val; omega

/-- The first right factor's block at every point is the whole of u. -/
theorem blk_u (c : Dev nD) (t : Fin cfg1.N) :
    (iblk1 V c 1 t : (⟨2, ![10000, 512]⟩ : Shape).Idx → EReal) = uArr V c := by
  obtain ⟨-, -, e2, e3, -, -, -, -⟩ := idx_facts t
  funext y
  show V c main_call0_v1 (((cfg1.win 1).blk t).view.emb y) = V c main_call0_v1 y
  refine congrArg (V c main_call0_v1) (funext fun a => Fin.ext ?_)
  match a with
  | ⟨0, _⟩ => show win1_1.index t (0 : Fin 2) * 10000 + 1 * (y 0).val = (y 0).val; omega
  | ⟨1, _⟩ => show win1_1.index t (1 : Fin 2) * 512 + 1 * (y 1).val = (y 1).val; omega

/-- The second right factor's block at every point is the whole copy of W2. -/
theorem blk_w2 (c : Dev nD) (t : Fin cfg1.N) :
    (iblk1 V c 2 t : (⟨2, ![512, 256]⟩ : Shape).Idx → EReal) = w2Arr V c := by
  obtain ⟨-, -, -, -, e4, e5, -, -⟩ := idx_facts t
  funext y
  show V c main_call0_v0 (((cfg1.win 2).blk t).view.emb y) = V c main_call0_v0 y
  refine congrArg (V c main_call0_v0) (funext fun a => Fin.ext ?_)
  match a with
  | ⟨0, _⟩ => show win1_2.index t (0 : Fin 2) * 512 + 1 * (y 0).val = (y 0).val; omega
  | ⟨1, _⟩ => show win1_2.index t (1 : Fin 2) * 256 + 1 * (y 1).val = (y 1).val; omega

/-- The output window's block at point t, read off any array of m's shape, is rows 400·t … of that array. -/
theorem read_out (t : Fin cfg1.N) (G : (⟨2, ![10000, 256]⟩ : Shape).Idx → EReal) :
    (((cfg1.win 3).blk t).view.read (Elt Ideal) G : (⟨2, ![400, 256]⟩ : Shape).Idx → EReal) = rowBlock 400 t.val (t_lt t) G := by
  obtain ⟨-, -, -, -, -, -, e6, e7⟩ := idx_facts t
  funext y
  show G (((cfg1.win 3).blk t).view.emb y) = G (ix2 (n0 := 10000) (n1 := 256) ⟨t.val * 400 + (y 0).val, _⟩ (y 1))
  refine congrArg G (funext fun a => Fin.ext ?_)
  match a with
  | ⟨0, _⟩ => show win1_3.index t (0 : Fin 2) * 400 + 1 * (y 0).val = t.val * 400 + (y 0).val; omega
  | ⟨1, _⟩ => show win1_3.index t (1 : Fin 2) * 256 + 1 * (y 1).val = (y 1).val; omega

/-- What point t writes back is block t of (adj·u)⁺·W2. -/
theorem flushed_eq (c : Dev nD) (t : Fin cfg1.N) :
    (dat1 V c).flushed 3 t
      = ((cfg1.win 3).blk t).view.read (Elt Ideal) (mm (clampBelow z0 (mm (adjArr V c) (uArr V c))) (w2Arr V c)) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x512) hz, View.ld_unit_zero (S := S512x256) hz]
  rw [pay_eq]
  show mm (clampBelow z0 (mm (iblk1 V c 0 t : (⟨2, ![400, 10000]⟩ : Shape).Idx → EReal) (iblk1 V c 1 t : (⟨2, ![10000, 512]⟩ : Shape).Idx → EReal)))
    (iblk1 V c 2 t : (⟨2, ![512, 256]⟩ : Shape).Idx → EReal) = _
  rw [blk_adj V c t, blk_u V c t, blk_w2 V c t, mm_rowBlock, clampBelow_rowBlock, mm_rowBlock]
  exact (read_out t _).symm

/-- An index of m is in point t's block iff each coordinate is in the block's range on its axis. -/
theorem mem_blk (t : Fin cfg1.N) (i : S10000x256.Idx) :
    i ∈ ((cfg1.win 3).blk t).view.set ↔ ∀ a : Fin 2, win1_3.index t a * S400x256.size a ≤ (i a).val ∧ (i a).val < win1_3.index t a * S400x256.size a + S400x256.size a := by
  show i ∈ ((View.whole main_call0_v2).slice (win1_3.rect t)).set ↔ _
  rw [View.set_slice_whole, Rect.mem_set_unit]
  exact Iff.rfl

/-- Every row of m lies in the block of the point that is the row's number divided by 400. -/
theorem cover (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  let t : Fin cfg1.N := ⟨(i 0).val / 400, by show (i 0).val / 400 < 25; omega⟩
  obtain ⟨-, -, -, -, -, -, e6, e7⟩ := idx_facts t
  have ht : t.val = (i 0).val / 400 := rfl
  refine ⟨t, flush1_3 t, ?_⟩
  rw [mem_blk]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 256 ≤ (i 1).val ∧ (i 1).val < win1_3.index t (1 : Fin 2) * 256 + 256; omega

/-- The array the region leaves in m is (adj·u)⁺·W2 of the arrays it found. -/
theorem arr_m (c : Dev nD) :
    (dat1 V c).arrAt 3 cfg1.N = mm (clampBelow z0 (mm (adjArr V c) (uArr V c))) (w2Arr V c) :=
  (dat1 V c).arrAt_eq_of_cover 3 (mm (clampBelow z0 (mm (adjArr V c) (uArr V c))) (w2Arr V c))
    (fun t _ => flushed_eq V c t) cover

end Cert.KernelIdeal.Region1

end
-- ==== Proof.Region2.lean ====
/-
  Region 2 (the second graph convolution's product, z = adj·m, written 400 rows at a time over 25 grid points).
  At grid point t the body reads rows 400·t … 400·t+399 of adj and the whole of m and stores their plain product;
  the 25 blocks of rows tile the 10000 rows, so the array the region leaves is the whole product.
-/
import proofs.«164917_g64579128262697_cont_9to1_m_969_6_alg».proof.Proof.Gen.KernelIdeal.Frame
import proofs.«164917_g64579128262697_cont_9to1_m_969_6_alg».proof.Proof.MatSpec

set_option maxRecDepth 16384

noncomputable section

namespace Cert.KernelIdeal.Region2

open Cert.KernelIdeal Cert.KernelIdeal.Gen Cert.MatSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the region finds: adj and m. -/
abbrev adjArr (c : Dev nD) : (⟨2, ![10000, 10000]⟩ : Shape).Idx → EReal := V c main_arg1
abbrev mArr (c : Dev nD) : (⟨2, ![10000, 256]⟩ : Shape).Idx → EReal := V c main_call0_v2

theorem hz : (![0, 0] : Fin 2 → Nat) = fun _ => 0 := funext fun a => by fin_cases a <;> rfl

/-- The body's stored value is the plain product of its two loaded blocks (a change of float format and a cast
    to the same shape are identities). -/
theorem pay_eq (x0 : Vec Ideal S400x10000 .f32) (x1 : Vec Ideal S10000x256 .bf16) :
    k2_pay1 (F := Ideal) x0 x1 = mm x0 x1 := by
  show matmul (F := Ideal) (φ₁ := .bf16) (φ₂ := .bf16) dot_S400x10000_S10000x256_S400x256_1_0_0_1_n_n none x0
    (shapeCast S10000x256 x1 shapeCasts_S10000x256_S10000x256) (constant (F := Ideal) S400x256 .f32 0x00000000#32) = _
  rw [shapeCast_self]
  exact matmul_zero_of_plain (φ₁ := .bf16) (φ₂ := .bf16) dot_S400x10000_S10000x256_S400x256_1_0_0_1_n_n rfl none x0 x1

/-- The printed index maps over the 25 points. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem t_lt (t : Fin cfg2.N) : t.val * 400 + 400 ≤ 10000 := by
  have h : t.val < 25 := t.isLt
  omega

/-- The left factor's block at point t is rows 400·t … of adj. -/
theorem blk_adj (c : Dev nD) (t : Fin cfg2.N) :
    (iblk2 V c 0 t : (⟨2, ![400, 10000]⟩ : Shape).Idx → EReal) = rowBlock 400 t.val (t_lt t) (adjArr V c) := by
  obtain ⟨e0, e1, -, -, -, -⟩ := idx_facts t
  funext y
  show V c main_arg1 (((cfg2.win 0).blk t).view.emb y) = V c main_arg1 (ix2 (n0 := 10000) (n1 := 10000) ⟨t.val * 400 + (y 0).val, _⟩ (y 1))
  refine congrArg (V c main_arg1) (funext fun a => Fin.ext ?_)
  match a with
  | ⟨0, _⟩ => show win2_0.index t (0 : Fin 2) * 400 + 1 * (y 0).val = t.val * 400 + (y 0).val; omega
  | ⟨1, _⟩ => show win2_0.index t (1 : Fin 2) * 10000 + 1 * (y 1).val = (y 1).val; omega

/-- The right factor's block at every point is the whole of m. -/
theorem blk_m (c : Dev nD) (t : Fin cfg2.N) :
    (iblk2 V c 1 t : (⟨2, ![10000, 256]⟩ : Shape).Idx → EReal) = mArr V c := by
  obtain ⟨-, -, e2, e3, -, -⟩ := idx_facts t
  funext y
  show V c main_call0_v2 (((cfg2.win 1).blk t).view.emb y) = V c main_call0_v2 y
  refine congrArg (V c main_call0_v2) (funext fun a => Fin.ext ?_)
  match a with
  | ⟨0, _⟩ => show win2_1.index t (0 : Fin 2) * 10000 + 1 * (y 0).val = (y 0).val; omega
  | ⟨1, _⟩ => show win2_1.index t (1 : Fin 2) * 256 + 1 * (y 1).val = (y 1).val; omega

/-- The output window's block at point t, read off any array of z's shape, is rows 400·t … of that array. -/
theorem read_out (t : Fin cfg2.N) (G : (⟨2, ![10000, 256]⟩ : Shape).Idx → EReal) :
    (((cfg2.win 2).blk t).view.read (Elt Ideal) G : (⟨2, ![400, 256]⟩ : Shape).Idx → EReal) = rowBlock 400 t.val (t_lt t) G := by
  obtain ⟨-, -, -, -, e4, e5⟩ := idx_facts t
  funext y
  show G (((cfg2.win 2).blk t).view.emb y) = G (ix2 (n0 := 10000) (n1 := 256) ⟨t.val * 400 + (y 0).val, _⟩ (y 1))
  refine congrArg G (funext fun a => Fin.ext ?_)
  match a with
  | ⟨0, _⟩ => show win2_2.index t (0 : Fin 2) * 400 + 1 * (y 0).val = t.val * 400 + (y 0).val; omega
  | ⟨1, _⟩ => show win2_2.index t (1 : Fin 2) * 256 + 1 * (y 1).val = (y 1).val; omega

/-- What point t writes back is block t of the whole product. -/
theorem flushed_eq (c : Dev nD) (t : Fin cfg2.N) :
    (dat2 V c).flushed 2 t = ((cfg2.win 2).blk t).view.read (Elt Ideal) (mm (adjArr V c) (mArr V c)) := by
  show (cfg2.win 2).cut (grid2.coords t) ((dat2 V c).after 2 t) = _
  rw [after2_2]
  unfold out2_2
  rw [View.canon_unit_zero hz]
  simp only [View.ld_unit_zero (S := S400x10000) hz, View.ld_unit_zero (S := S10000x256) hz]
  rw [pay_eq]
  show mm (iblk2 V c 0 t : (⟨2, ![400, 10000]⟩ : Shape).Idx → EReal) (iblk2 V c 1 t : (⟨2, ![10000, 256]⟩ : Shape).Idx → EReal) = _
  rw [blk_adj V c t, blk_m V c t, mm_rowBlock]
  exact (read_out t _).symm

/-- An index of z is in point t's block iff each coordinate is in the block's range on its axis. -/
theorem mem_blk (t : Fin cfg2.N) (i : S10000x256.Idx) :
    i ∈ ((cfg2.win 2).blk t).view.set ↔ ∀ a : Fin 2, win2_2.index t a * S400x256.size a ≤ (i a).val ∧ (i a).val < win2_2.index t a * S400x256.size a + S400x256.size a := by
  show i ∈ ((View.whole main_call0_v3).slice (win2_2.rect t)).set ↔ _
  rw [View.set_slice_whole, Rect.mem_set_unit]
  exact Iff.rfl

/-- Every row of z lies in the block of the point that is the row's number divided by 400. -/
theorem cover (i : S10000x256.Idx) :
    ∃ t : Fin cfg2.N, (cfg2.win 2).flush t = true ∧ i ∈ ((cfg2.win 2).blk t).view.set := by
  have hi0 : (i 0).val < 10000 := (i 0).isLt
  have hi1 : (i 1).val < 256 := (i 1).isLt
  let t : Fin cfg2.N := ⟨(i 0).val / 400, by show (i 0).val / 400 < 25; omega⟩
  obtain ⟨-, -, -, -, e4, e5⟩ := idx_facts t
  have ht : t.val = (i 0).val / 400 := rfl
  refine ⟨t, flush2_2 t, ?_⟩
  rw [mem_blk]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 256 ≤ (i 1).val ∧ (i 1).val < win2_2.index t (1 : Fin 2) * 256 + 256; omega

/-- The array the region leaves in z is the whole product of the adj and m it found. -/
theorem arr_z (c : Dev nD) : (dat2 V c).arrAt 2 cfg2.N = mm (adjArr V c) (mArr V c) :=
  (dat2 V c).arrAt_eq_of_cover 2 (mm (adjArr V c) (mArr V c)) (fun t _ => flushed_eq V c t) cover

end Cert.KernelIdeal.Region2

end
-- ==== Proof.Region3.lean ====
/-
  Region 3 (the transposition, zᵀ from z, one grid point over whole arrays).
  The body reads the whole of z and stores its transposed array: entry (i, j) of what it stores is entry (j, i) of
  what it read. The one block is the whole array.
-/
import proofs.«164917_g64579128262697_cont_9to1_m_969_6_alg».proof.Proof.Gen.KernelIdeal.Frame
import proofs.«164917_g64579128262697_cont_9to1_m_969_6_alg».proof.Proof.MatSpec

set_option maxRecDepth 16384

noncomputable section

namespace Cert.KernelIdeal.Region3

open Cert.KernelIdeal Cert.KernelIdeal.Gen Cert.MatSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The array the region finds: z. -/
abbrev zArr (c : Dev nD) : (⟨2, ![10000, 256]⟩ : Shape).Idx → EReal := V c main_call0_v3

theorem hz : (![0, 0] : Fin 2 → Nat) = fun _ => 0 := funext fun a => by fin_cases a <;> rfl

/-- The body's stored value is the transposed array of its loaded block (a cast to the same shape is the
    identity). -/
theorem pay_eq (x0 : Vec Ideal S10000x256 .bf16) : k3_pay1 (F := Ideal) x0 = tr x0 := by
  show transpose S256x10000 [1, 0] (shapeCast S10000x256 x0 shapeCasts_S10000x256_S10000x256)
    transposes_S10000x256_p1_0_S256x10000 = _
  rw [shapeCast_self]
  exact transpose_eq_tr x0 _

/-- The printed index maps at the one point: both windows at block (0, 0). -/
theorem idx_facts : ∀ t : Fin cfg3.N, win3_0.index t (0 : Fin 2) = 0 ∧ win3_0.index t (1 : Fin 2) = 0
    ∧ win3_1.index t (0 : Fin 2) = 0 ∧ win3_1.index t (1 : Fin 2) = 0 :=
  (by decide +kernel : ∀ t : Fin grid3.N, _)

/-- The input window's block is the whole of z. -/
theorem blk_z (c : Dev nD) (t : Fin cfg3.N) :
    (iblk3 V c 0 t : (⟨2, ![10000, 256]⟩ : Shape).Idx → EReal) = zArr V c := by
  obtain ⟨e0, e1, -, -⟩ := idx_facts t
  funext y
  show V c main_call0_v3 (((cfg3.win 0).blk t).view.emb y) = V c main_call0_v3 y
  refine congrArg (V c main_call0_v3) (funext fun a => Fin.ext ?_)
  match a with
  | ⟨0, _⟩ => show win3_0.index t (0 : Fin 2) * 10000 + 1 * (y 0).val = (y 0).val; omega
  | ⟨1, _⟩ => show win3_0.index t (1 : Fin 2) * 256 + 1 * (y 1).val = (y 1).val; omega

/-- The output window's block, read off any array of the transposed shape, is that whole array. -/
theorem read_out (t : Fin cfg3.N) (G : (⟨2, ![256, 10000]⟩ : Shape).Idx → EReal) :
    (((cfg3.win 1).blk t).view.read (Elt Ideal) G : (⟨2, ![256, 10000]⟩ : Shape).Idx → EReal) = G := by
  obtain ⟨-, -, e2, e3⟩ := idx_facts t
  funext y
  show G (((cfg3.win 1).blk t).view.emb y) = G y
  refine congrArg G (funext fun a => Fin.ext ?_)
  match a with
  | ⟨0, _⟩ => show win3_1.index t (0 : Fin 2) * 256 + 1 * (y 0).val = (y 0).val; omega
  | ⟨1, _⟩ => show win3_1.index t (1 : Fin 2) * 10000 + 1 * (y 1).val = (y 1).val; omega

/-- What the point writes back is the transposed array of the z the region found. -/
theorem flushed_eq (c : Dev nD) (t : Fin cfg3.N) :
    (dat3 V c).flushed 1 t = ((cfg3.win 1).blk t).view.read (Elt Ideal) (tr (zArr V c)) := by
  show (cfg3.win 1).cut (grid3.coords t) ((dat3 V c).after 1 t) = _
  rw [after3_1]
  unfold out3_1
  rw [View.canon_unit_zero hz]
  simp only [View.ld_unit_zero (S := S10000x256) hz]
  rw [pay_eq]
  show tr (iblk3 V c 0 t : (⟨2, ![10000, 256]⟩ : Shape).Idx → EReal) = _
  rw [blk_z V c t]
  exact (read_out t _).symm

/-- An index of the transposed array is in the point's block iff each coordinate is in the block's range. -/
theorem mem_blk (t : Fin cfg3.N) (i : S256x10000.Idx) :
    i ∈ ((cfg3.win 1).blk t).view.set ↔ ∀ a : Fin 2, win3_1.index t a * S256x10000.size a ≤ (i a).val ∧ (i a).val < win3_1.index t a * S256x10000.size a + S256x10000.size a := by
  show i ∈ ((View.whole main_call0_v4).slice (win3_1.rect t)).set ↔ _
  rw [View.set_slice_whole, Rect.mem_set_unit]
  exact Iff.rfl

/-- The one block covers every index. -/
theorem cover (i : S256x10000.Idx) :
    ∃ t : Fin cfg3.N, (cfg3.win 1).flush t = true ∧ i ∈ ((cfg3.win 1).blk t).view.set := by
  have hi0 : (i 0).val < 256 := (i 0).isLt
  have hi1 : (i 1).val < 10000 := (i 1).isLt
  let t : Fin cfg3.N := ⟨0, by show 0 < 1; omega⟩
  obtain ⟨-, -, e2, e3⟩ := idx_facts t
  refine ⟨t, flush3_1 t, ?_⟩
  rw [mem_blk]
  intro a
  match a with
  | ⟨0, _⟩ => show win3_1.index t (0 : Fin 2) * 256 ≤ (i 0).val ∧ (i 0).val < win3_1.index t (0 : Fin 2) * 256 + 256; omega
  | ⟨1, _⟩ => show win3_1.index t (1 : Fin 2) * 10000 ≤ (i 1).val ∧ (i 1).val < win3_1.index t (1 : Fin 2) * 10000 + 10000; omega

/-- The array the region leaves is the transposed array of the z it found. -/
theorem arr_zt (c : Dev nD) : (dat3 V c).arrAt 1 cfg3.N = tr (zArr V c) :=
  (dat3 V c).arrAt_eq_of_cover 1 (tr (zArr V c)) (fun t _ => flushed_eq V c t) cover

end Cert.KernelIdeal.Region3

end
-- ==== Proof.Region4.lean ====
/-
  Region 4 (the decoder, result = z·zᵀ, written 400 rows at a time over 25 grid points).
  At grid point t the body reads rows 400·t … 400·t+399 of z and the whole of the transposed array and stores
  their plain product; the 25 blocks of rows tile the 10000 rows, so the array the region leaves is the whole
  product of the two arrays it found.
-/
import proofs.«164917_g64579128262697_cont_9to1_m_969_6_alg».proof.Proof.Gen.KernelIdeal.Frame
import proofs.«164917_g64579128262697_cont_9to1_m_969_6_alg».proof.Proof.MatSpec

set_option maxRecDepth 16384

noncomputable section

namespace Cert.KernelIdeal.Region4

open Cert.KernelIdeal Cert.KernelIdeal.Gen Cert.MatSpec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the region finds: z and its transposed copy. -/
abbrev zArr (c : Dev nD) : (⟨2, ![10000, 256]⟩ : Shape).Idx → EReal := V c main_call0_v3
abbrev ztArr (c : Dev nD) : (⟨2, ![256, 10000]⟩ : Shape).Idx → EReal := V c main_call0_v4

theorem hz : (![0, 0] : Fin 2 → Nat) = fun _ => 0 := funext fun a => by fin_cases a <;> rfl

/-- The body's stored value is the plain product of its two loaded blocks (casts to the same shape are
    identities). -/
theorem pay_eq (x0 : Vec Ideal S400x256 .bf16) (x1 : Vec Ideal S256x10000 .bf16) :
    k4_pay1 (F := Ideal) x0 x1 = mm x0 x1 := by
  show matmul (F := Ideal) (φ₁ := .bf16) (φ₂ := .bf16) dot_S400x256_S256x10000_S400x10000_1_0_0_1_n_n none
    (shapeCast S400x256 x0 shapeCasts_S400x256_S400x256) (shapeCast S256x10000 x1 shapeCasts_S256x10000_S256x10000)
    (constant (F := Ideal) S400x10000 .f32 0x00000000#32) = _
  rw [shapeCast_self, shapeCast_self]
  exact matmul_zero_of_plain (φ₁ := .bf16) (φ₂ := .bf16) dot_S400x256_S256x10000_S400x10000_1_0_0_1_n_n rfl none x0 x1

/-- The printed index maps over the 25 points. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem t_lt (t : Fin cfg4.N) : t.val * 400 + 400 ≤ 10000 := by
  have h : t.val < 25 := t.isLt
  omega

/-- The left factor's block at point t is rows 400·t … of z. -/
theorem blk_z (c : Dev nD) (t : Fin cfg4.N) :
    (iblk4 V c 0 t : (⟨2, ![400, 256]⟩ : Shape).Idx → EReal) = rowBlock 400 t.val (t_lt t) (zArr V c) := by
  obtain ⟨e0, e1, -, -, -, -⟩ := idx_facts t
  funext y
  show V c main_call0_v3 (((cfg4.win 0).blk t).view.emb y) = V c main_call0_v3 (ix2 (n0 := 10000) (n1 := 256) ⟨t.val * 400 + (y 0).val, _⟩ (y 1))
  refine congrArg (V c main_call0_v3) (funext fun a => Fin.ext ?_)
  match a with
  | ⟨0, _⟩ => show win4_0.index t (0 : Fin 2) * 400 + 1 * (y 0).val = t.val * 400 + (y 0).val; omega
  | ⟨1, _⟩ => show win4_0.index t (1 : Fin 2) * 256 + 1 * (y 1).val = (y 1).val; omega

/-- The right factor's block at every point is the whole transposed array. -/
theorem blk_zt (c : Dev nD) (t : Fin cfg4.N) :
    (iblk4 V c 1 t : (⟨2, ![256, 10000]⟩ : Shape).Idx → EReal) = ztArr V c := by
  obtain ⟨-, -, e2, e3, -, -⟩ := idx_facts t
  funext y
  show V c main_call0_v4 (((cfg4.win 1).blk t).view.emb y) = V c main_call0_v4 y
  refine congrArg (V c main_call0_v4) (funext fun a => Fin.ext ?_)
  match a with
  | ⟨0, _⟩ => show win4_1.index t (0 : Fin 2) * 256 + 1 * (y 0).val = (y 0).val; omega
  | ⟨1, _⟩ => show win4_1.index t (1 : Fin 2) * 10000 + 1 * (y 1).val = (y 1).val; omega

/-- The output window's block at point t, read off any array of the result's shape, is rows 400·t … of it. -/
theorem read_out (t : Fin cfg4.N) (G : (⟨2, ![10000, 10000]⟩ : Shape).Idx → EReal) :
    (((cfg4.win 2).blk t).view.read (Elt Ideal) G : (⟨2, ![400, 10000]⟩ : Shape).Idx → EReal) = rowBlock 400 t.val (t_lt t) G := by
  obtain ⟨-, -, -, -, e4, e5⟩ := idx_facts t
  funext y
  show G (((cfg4.win 2).blk t).view.emb y) = G (ix2 (n0 := 10000) (n1 := 10000) ⟨t.val * 400 + (y 0).val, _⟩ (y 1))
  refine congrArg G (funext fun a => Fin.ext ?_)
  match a with
  | ⟨0, _⟩ => show win4_2.index t (0 : Fin 2) * 400 + 1 * (y 0).val = t.val * 400 + (y 0).val; omega
  | ⟨1, _⟩ => show win4_2.index t (1 : Fin 2) * 10000 + 1 * (y 1).val = (y 1).val; omega

/-- What point t writes back is block t of the whole product. -/
theorem flushed_eq (c : Dev nD) (t : Fin cfg4.N) :
    (dat4 V c).flushed 2 t = ((cfg4.win 2).blk t).view.read (Elt Ideal) (mm (zArr V c) (ztArr V c)) := by
  show (cfg4.win 2).cut (grid4.coords t) ((dat4 V c).after 2 t) = _
  rw [after4_2]
  unfold out4_2
  rw [View.canon_unit_zero hz]
  simp only [View.ld_unit_zero (S := S400x256) hz, View.ld_unit_zero (S := S256x10000) hz]
  rw [pay_eq]
  show mm (iblk4 V c 0 t : (⟨2, ![400, 256]⟩ : Shape).Idx → EReal) (iblk4 V c 1 t : (⟨2, ![256, 10000]⟩ : Shape).Idx → EReal) = _
  rw [blk_z V c t, blk_zt V c t, mm_rowBlock]
  exact (read_out t _).symm

/-- An index of the result is in point t's block iff each coordinate is in the block's range on its axis. -/
theorem mem_blk (t : Fin cfg4.N) (i : S10000x10000.Idx) :
    i ∈ ((cfg4.win 2).blk t).view.set ↔ ∀ a : Fin 2, win4_2.index t a * S400x10000.size a ≤ (i a).val ∧ (i a).val < win4_2.index t a * S400x10000.size a + S400x10000.size a := by
  show i ∈ ((View.whole main_v0).slice (win4_2.rect t)).set ↔ _
  rw [View.set_slice_whole, Rect.mem_set_unit]
  exact Iff.rfl

/-- Every row of the result lies in the block of the point that is the row's number divided by 400. -/
theorem cover (i : S10000x10000.Idx) :
    ∃ t : Fin cfg4.N, (cfg4.win 2).flush t = true ∧ i ∈ ((cfg4.win 2).blk t).view.set := by
  have hi0 : (i 0).val < 10000 := (i 0).isLt
  have hi1 : (i 1).val < 10000 := (i 1).isLt
  let t : Fin cfg4.N := ⟨(i 0).val / 400, by show (i 0).val / 400 < 25; omega⟩
  obtain ⟨-, -, -, -, e4, e5⟩ := idx_facts t
  have ht : t.val = (i 0).val / 400 := rfl
  refine ⟨t, flush4_2 t, ?_⟩
  rw [mem_blk]
  intro a
  match a with
  | ⟨0, _⟩ => show win4_2.index t (0 : Fin 2) * 400 ≤ (i 0).val ∧ (i 0).val < win4_2.index t (0 : Fin 2) * 400 + 400; omega
  | ⟨1, _⟩ => show win4_2.index t (1 : Fin 2) * 10000 ≤ (i 1).val ∧ (i 1).val < win4_2.index t (1 : Fin 2) * 10000 + 10000; omega

/-- The array the region leaves in the result is the whole product of the z and transposed copy it found. -/
theorem arr_out (c : Dev nD) : (dat4 V c).arrAt 2 cfg4.N = mm (zArr V c) (ztArr V c) :=
  (dat4 V c).arrAt_eq_of_cover 2 (mm (zArr V c) (ztArr V c)) (fun t _ => flushed_eq V c t) cover

end Cert.KernelIdeal.Region4

end
-- ==== Proof.Boundary.lean ====
/-
  The buffers' contents at the boundaries between the five regions, for the buffers a later region reads:
  an argument array is never written, so at every boundary it holds what it was launched with; the one host
  operation before the first region writes the 16-bit copy of W2, which on extended reals is W2 itself; and each
  intermediate array (u, m, z, zᵀ) holds, from the exit of the region that writes it on, what that region left.
-/
import proofs.«164917_g64579128262697_cont_9to1_m_969_6_alg».proof.Proof.Gen.KernelIdeal.Frame
import Idealize.ShloMosaic.Lib.StableHlo.Run
import Idealize.ShloMosaic.PureOps.Ideal

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## Before the first region -/

/-- The host operation before the first region writes none of x, adj, W1. -/
theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))).trans rfl
theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))).trans rfl
theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.Forall, StableHlo.unary_writes, Finset.mem_singleton]
    exact StableHlo.devRef_ne_of_ne (by decide)))).trans rfl

/-- The 16-bit copy of W2 is W2 (a change of float format is the identity on extended reals). -/
theorem W1_w2copy (c : Dev nD) :
    (W1 m ρ c (Proc.devRef .tc main_call0_v0) : S512x256.Idx → EReal) = m ((c : Thread nD τ).loc main_arg3) := by
  show StableHlo.after hostOps0 (W0 m ρ c) (Proc.devRef .tc main_call0_v0) = _
  after_results
  rfl

/-! ## After region 0 (u written) -/

theorem W2_arg1 (c : Dev nD) : W2 m ρ c (Proc.devRef .tc main_arg1) = m ((c : Thread nD τ).loc main_arg1) :=
  (W2_of_ne m ρ c main_arg1 (by decide)).trans (W1_arg1 m ρ c)
theorem W2_w2copy (c : Dev nD) :
    (W2 m ρ c (Proc.devRef .tc main_call0_v0) : S512x256.Idx → EReal) = m ((c : Thread nD τ).loc main_arg3) :=
  (W2_of_ne m ρ c main_call0_v0 (by decide)).trans (W1_w2copy m ρ c)
theorem W2_u (c : Dev nD) : W2 m ρ c (Proc.devRef .tc main_call0_v1) = (dat0 (V1 m ρ) c).arrAt 2 cfg0.N :=
  W2_arr m ρ c 2

/-! ## After region 1 (m written; adj was read through an input window) -/

theorem W3_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)
theorem W3_m (c : Dev nD) : W3 m ρ c (Proc.devRef .tc main_call0_v2) = (dat1 (V2 m ρ) c).arrAt 3 cfg1.N :=
  W3_arr m ρ c 3

/-! ## After region 2 (z written) -/

theorem W4_z (c : Dev nD) : W4 m ρ c (Proc.devRef .tc main_call0_v3) = (dat2 (V3 m ρ) c).arrAt 2 cfg2.N :=
  W4_arr m ρ c 2

/-! ## After region 3 (zᵀ written; z was read through an input window) -/

theorem W5_z (c : Dev nD) : W5 m ρ c (Proc.devRef .tc main_call0_v3) = W4 m ρ c (Proc.devRef .tc main_call0_v3) :=
  (W5_arr m ρ c 0).trans (((dat3 (V4 m ρ) c).arrAt_in 0 rfl _).trans (A_eq3 (V4 m ρ) c 0))
theorem W5_zt (c : Dev nD) : W5 m ρ c (Proc.devRef .tc main_call0_v4) = (dat3 (V4 m ρ) c).arrAt 1 cfg3.N :=
  W5_arr m ρ c 1

/-! ## After region 4 (the result written) -/

theorem W6_out (c : Dev nD) : W6 m ρ c (Proc.devRef .tc main_v0) = (dat4 (V5 m ρ) c).arrAt 2 cfg4.N :=
  W6_arr m ρ c 2

end Cert.KernelIdeal.Boundary

end
-- ==== Proof.GaeSpec.lean ====
/-
  What both programs compute, as one function of the four argument arrays over the extended reals:
  a two-layer graph-convolution encoder  z = adj · ((adj · (x · W1))⁺ · W2)  — the inner product is rectified by
  an entrywise maximum with a fixed extended real (zero, kept as a parameter: it is the same word in both
  programs and is never evaluated) — followed by the inner-product decoder  z · zᵀ.
-/
import proofs.«164917_g64579128262697_cont_9to1_m_969_6_alg».proof.Proof.MatSpec

noncomputable section

namespace Cert.MatSpec

open Idealize.ShloMosaic

/-- The encoder: adj · ((adj · (x · W1)) clamped below by `z0`) · W2), a 10000 × 256 array. -/
def encode (z0 : EReal) (x : (⟨2, ![10000, 512]⟩ : Shape).Idx → EReal) (adj : (⟨2, ![10000, 10000]⟩ : Shape).Idx → EReal)
    (w1 : (⟨2, ![512, 512]⟩ : Shape).Idx → EReal) (w2 : (⟨2, ![512, 256]⟩ : Shape).Idx → EReal) :
    (⟨2, ![10000, 256]⟩ : Shape).Idx → EReal :=
  mm adj (mm (clampBelow z0 (mm adj (mm x w1))) w2)

/-- The decoder: every pair of rows' inner product, a 10000 × 10000 array. -/
def decode (z : (⟨2, ![10000, 256]⟩ : Shape).Idx → EReal) : (⟨2, ![10000, 10000]⟩ : Shape).Idx → EReal :=
  mm z (tr z)

/-- The reconstructed adjacency logits. -/
def gae (z0 : EReal) (x : (⟨2, ![10000, 512]⟩ : Shape).Idx → EReal) (adj : (⟨2, ![10000, 10000]⟩ : Shape).Idx → EReal)
    (w1 : (⟨2, ![512, 512]⟩ : Shape).Idx → EReal) (w2 : (⟨2, ![512, 256]⟩ : Shape).Idx → EReal) :
    (⟨2, ![10000, 10000]⟩ : Shape).Idx → EReal :=
  decode (encode z0 x adj w1 w2)

end Cert.MatSpec

end
-- ==== Proof.Chain.lean ====
/-
  The result array after the run, followed back through the five regions to the launch memory.
  Each region leaves one array as a function of the arrays it found (a plain product; a rectified product times a
  second factor; a transposition); every array a region finds is either an argument array as launched or what an
  earlier region left. Composed in the program's order:
    u = x·W1,  m = (adj·u)⁺·W2,  z = adj·m,  zᵀ,  result = z·zᵀ,
  which is the specification's encoder followed by its decoder.
-/
import proofs.«164917_g64579128262697_cont_9to1_m_969_6_alg».proof.Proof.Region0
import proofs.«164917_g64579128262697_cont_9to1_m_969_6_alg».proof.Proof.Region1
import proofs.«164917_g64579128262697_cont_9to1_m_969_6_alg».proof.Proof.Region2
import proofs.«164917_g64579128262697_cont_9to1_m_969_6_alg».proof.Proof.Region3
import proofs.«164917_g64579128262697_cont_9to1_m_969_6_alg».proof.Proof.Region4
import proofs.«164917_g64579128262697_cont_9to1_m_969_6_alg».proof.Proof.Boundary
import proofs.«164917_g64579128262697_cont_9to1_m_969_6_alg».proof.Proof.GaeSpec

set_option maxRecDepth 16384

noncomputable section

namespace Cert.KernelIdeal.Chain

open Cert.KernelIdeal Cert.KernelIdeal.Gen Cert.MatSpec
open Idealize.ShloMosaic Idealize.ShloMosaic.TcCoe Idealize.SL.Sem

variable (m : (ℓ : Loc nD τ sig) → Buf (Elt Ideal) ℓ) (ρ : Dev nD → PrngReg)

/-- The rectifier's floor: the zero word of the 32-bit format, as an extended real (not evaluated). -/
abbrev z0 : EReal := Ideal.ofBits .f32 0x00000000#32

/-- The argument arrays as launched, as arrays of extended reals. -/
abbrev xIn (c : Dev nD) : (⟨2, ![10000, 512]⟩ : Shape).Idx → EReal := m ((c : Thread nD τ).loc main_arg0)
abbrev adjIn (c : Dev nD) : (⟨2, ![10000, 10000]⟩ : Shape).Idx → EReal := m ((c : Thread nD τ).loc main_arg1)
abbrev w1In (c : Dev nD) : (⟨2, ![512, 512]⟩ : Shape).Idx → EReal := m ((c : Thread nD τ).loc main_arg2)
abbrev w2In (c : Dev nD) : (⟨2, ![512, 256]⟩ : Shape).Idx → EReal := m ((c : Thread nD τ).loc main_arg3)

/-- The result array at the last boundary is the specification of the launch memory's argument arrays. -/
theorem result_eq (c : Dev nD) :
    (W6 m ρ c (Proc.devRef .tc main_v0) : (⟨2, ![10000, 10000]⟩ : Shape).Idx → EReal)
      = gae z0 (xIn m c) (adjIn m c) (w1In m c) (w2In m c) := by
  -- region 0 finds x and W1 as launched and leaves u = x·W1
  have hx : Region0.xArr (V1 m ρ) c = xIn m c := Boundary.W1_arg0 m ρ c
  have hw1 : Region0.wArr (V1 m ρ) c = w1In m c := Boundary.W1_arg2 m ρ c
  have hu : Region1.uArr (V2 m ρ) c = mm (xIn m c) (w1In m c) :=
    ((Boundary.W2_u m ρ c).trans (Region0.arr_u (V1 m ρ) c)).trans (by rw [hx, hw1])
  -- region 1 finds adj as launched, that u, and W2's copy, and leaves m = (adj·u)⁺·W2
  have hadj1 : Region1.adjArr (V2 m ρ) c = adjIn m c := Boundary.W2_arg1 m ρ c
  have hw2 : Region1.w2Arr (V2 m ρ) c = w2In m c := Boundary.W2_w2copy m ρ c
  have hm : Region2.mArr (V3 m ρ) c = mm (clampBelow z0 (mm (adjIn m c) (mm (xIn m c) (w1In m c)))) (w2In m c) :=
    ((Boundary.W3_m m ρ c).trans (Region1.arr_m (V2 m ρ) c)).trans (by rw [hadj1, hu, hw2])
  -- region 2 finds adj as launched and that m, and leaves z = adj·m
  have hadj2 : Region2.adjArr (V3 m ρ) c = adjIn m c := Boundary.W3_arg1 m ρ c
  have hz : Region3.zArr (V4 m ρ) c = encode z0 (xIn m c) (adjIn m c) (w1In m c) (w2In m c) :=
    ((Boundary.W4_z m ρ c).trans (Region2.arr_z (V3 m ρ) c)).trans (by rw [hadj2, hm]; rfl)
  -- region 3 finds that z and leaves its transposed array, z itself untouched
  have hz' : Region4.zArr (V5 m ρ) c = encode z0 (xIn m c) (adjIn m c) (w1In m c) (w2In m c) :=
    (Boundary.W5_z m ρ c).trans hz
  have hzt : Region4.ztArr (V5 m ρ) c = tr (encode z0 (xIn m c) (adjIn m c) (w1In m c) (w2In m c)) :=
    ((Boundary.W5_zt m ρ c).trans (Region3.arr_zt (V4 m ρ) c)).trans (by rw [hz])
  -- region 4 finds both and leaves their product
  exact ((Boundary.W6_out m ρ c).trans (Region4.arr_out (V5 m ρ) c)).trans (by rw [hz', hzt]; rfl)

end Cert.KernelIdeal.Chain

end
-- ==== Proof.RefValue.lean ====
/-
  The reference, stage by stage, is the specification: each of its five host contractions has the plain
  dimension numbers and so is a plain matrix product; its rectifier is the entrywise maximum with the zero word
  broadcast from a scalar; its transposition is the transposed array.
-/
import proofs.«164917_g64579128262697_cont_9to1_m_969_6_alg».proof.Proof.Gen.ReferenceIdeal.Read
import proofs.«164917_g64579128262697_cont_9to1_m_969_6_alg».proof.Proof.GaeSpec

noncomputable section

namespace Cert.ReferenceIdeal.RefValue

open Cert.ReferenceIdeal Cert.ReferenceIdeal.Gen Cert.ReferenceIdeal.Read Cert.MatSpec
open Idealize.ShloMosaic Idealize.ShloMosaic.TcCoe Idealize.ShloMosaic.ValueIdx

/-- The rectifier's floor: the zero word of the 32-bit format, as an extended real (not evaluated). -/
abbrev z0 : EReal := Ideal.ofBits .f32 0x00000000#32

variable (x0 : (⟨S10000x512, .f32⟩ : BufTy).Contents (Elt Ideal)) (x1 : (⟨S10000x10000, .f32⟩ : BufTy).Contents (Elt Ideal))
  (x2 : (⟨S512x512, .f32⟩ : BufTy).Contents (Elt Ideal)) (x3 : (⟨S512x256, .f32⟩ : BufTy).Contents (Elt Ideal))

/-- x · W1. -/
theorem stage0 : val_main_v0 (F := Ideal) x0 x2 = mm x0 x2 := by
  unfold val_main_v0
  exact dotGeneral_of_plain dot_S10000x512_S512x512_S10000x512_1_0_0_1_n_n rfl none x0 x2

/-- adj · (x · W1). -/
theorem stage1 : val_main_v1 (F := Ideal) x0 x1 x2 = mm x1 (mm x0 x2) := by
  unfold val_main_v1
  rw [stage0]
  exact dotGeneral_of_plain dot_S10000x10000_S10000x512_S10000x512_1_0_0_1_n_n rfl none x1 _

/-- The broadcast scalar zero is the zero word at every index. -/
theorem floor_apply (i : S10000x512.Idx) : val_main_call0_v0 (F := Ideal) i = z0 := by
  rw [val_main_call0_v0_apply]
  rfl

/-- The rectified inner product. -/
theorem stage2 : val_main_v2 (F := Ideal) x0 x1 x2 = clampBelow z0 (mm x1 (mm x0 x2)) := by
  funext i
  rw [val_main_v2_apply, stage1, floor_apply]
  rfl

/-- (…)⁺ · W2. -/
theorem stage3 : val_main_v3 (F := Ideal) x0 x1 x2 x3 = mm (clampBelow z0 (mm x1 (mm x0 x2))) x3 := by
  unfold val_main_v3
  rw [stage2]
  exact dotGeneral_of_plain dot_S10000x512_S512x256_S10000x256_1_0_0_1_n_n rfl none _ x3

/-- The encoder's output. -/
theorem stage4 : val_main_v4 (F := Ideal) x0 x1 x2 x3 = encode z0 x0 x1 x2 x3 := by
  unfold val_main_v4
  rw [stage3]
  exact dotGeneral_of_plain dot_S10000x10000_S10000x256_S10000x256_1_0_0_1_n_n rfl none x1 _

/-- Its transposition. -/
theorem stage5 : val_main_v5 (F := Ideal) x0 x1 x2 x3 = tr (encode z0 x0 x1 x2 x3) := by
  unfold val_main_v5
  rw [stage4]
  exact transpose_eq_tr _ _

/-- The decoder's output: the reference's result is the specification. -/
theorem stage6 : val_main_v6 (F := Ideal) x0 x1 x2 x3 = gae z0 x0 x1 x2 x3 := by
  unfold val_main_v6
  rw [stage4, stage5]
  exact dotGeneral_of_plain dot_S10000x256_S256x10000_S10000x10000_1_0_0_1_n_n rfl none _ _

end Cert.ReferenceIdeal.RefValue

end
-- ==== Proof.lean ====
/-
  The certificate that a five-stage tiled kernel for a two-layer graph-convolution auto-encoder agrees with its
  plain reference over the extended reals.

  Both programs compute  z · zᵀ  with  z = adj · ((adj · (x · W1))⁺ · W2), associated the same way. The kernel
  computes each product 400 rows at a time (rows of a product depend only on the same rows of the left factor),
  keeps intermediate arrays in a 16-bit format (a change of float format is the identity on extended reals), and
  transposes z in a stage of its own; the reference contracts whole arrays. Every contraction on either side has
  the plain dimension numbers, so each is the plain matrix product `mm`, and no algebraic law beyond that
  re-indexing is needed: finiteness of the inputs is never used.

  The three frames are the generated ones (the reference's is its generated run with the result dropped); the
  idealization rewrote nothing, so `preserves` is trivial; for `algebraic` the kernel's run is taken once more
  with its result array named (Proof/KernelRun.lean), that array is followed back through the five regions
  (Proof/Chain.lean over Proof/Region0 … Region4 and Proof/Boundary.lean), and the reference's generated run is
  read stage by stage (Proof/RefValue.lean); both are the specification `gae` (Proof/GaeSpec.lean) of argument
  arrays that agree.
-/
import proofs.«164917_g64579128262697_cont_9to1_m_969_6_alg».proof.Defs
import proofs.«164917_g64579128262697_cont_9to1_m_969_6_alg».proof.Proof.Gen.Kernel
import proofs.«164917_g64579128262697_cont_9to1_m_969_6_alg».proof.Proof.Gen.Kernel.Skeleton
import proofs.«164917_g64579128262697_cont_9to1_m_969_6_alg».proof.Proof.Gen.Kernel.Launch
import proofs.«164917_g64579128262697_cont_9to1_m_969_6_alg».proof.Proof.Gen.Kernel.Points
import proofs.«164917_g64579128262697_cont_9to1_m_969_6_alg».proof.Proof.Gen.Kernel.Frame
import proofs.«164917_g64579128262697_cont_9to1_m_969_6_alg».proof.Proof.Gen.KernelIdeal
import proofs.«164917_g64579128262697_cont_9to1_m_969_6_alg».proof.Proof.Gen.KernelIdeal.Skeleton
import proofs.«164917_g64579128262697_cont_9to1_m_969_6_alg».proof.Proof.Gen.KernelIdeal.Launch
import proofs.«164917_g64579128262697_cont_9to1_m_969_6_alg».proof.Proof.Gen.KernelIdeal.Points
import proofs.«164917_g64579128262697_cont_9to1_m_969_6_alg».proof.Proof.Gen.KernelIdeal.Frame
import proofs.«164917_g64579128262697_cont_9to1_m_969_6_alg».proof.Proof.Gen.ReferenceIdeal
import proofs.«164917_g64579128262697_cont_9to1_m_969_6_alg».proof.Proof.Gen.ReferenceIdeal.Run
import proofs.«164917_g64579128262697_cont_9to1_m_969_6_alg».proof.Proof.Gen.ReferenceIdeal.Read
import proofs.«164917_g64579128262697_cont_9to1_m_969_6_alg».proof.Proof.Gen.Pre_finite_inputs
import proofs.«164917_g64579128262697_cont_9to1_m_969_6_alg».proof.Proof.KernelRun
import proofs.«164917_g64579128262697_cont_9to1_m_969_6_alg».proof.Proof.Chain
import proofs.«164917_g64579128262697_cont_9to1_m_969_6_alg».proof.Proof.RefValue
import Idealize.ShloMosaic.Adequacy
import Idealize.ShloMosaic.Init

noncomputable section

namespace Cert.Proof

open Idealize.ShloMosaic Idealize.SL.Sem Cert.MatSpec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- Both runs end with the result array at the specification of the (agreeing) argument arrays. -/
theorem algebraic : Cert.algebraic_KernelIdeal_ReferenceIdeal := by
  intro m ρ m' ρ' _ hagree
  refine ⟨fun c => gae Cert.KernelIdeal.Chain.z0 (Cert.KernelIdeal.Chain.xIn m c) (Cert.KernelIdeal.Chain.adjIn m c)
    (Cert.KernelIdeal.Chain.w1In m c) (Cert.KernelIdeal.Chain.w2In m c), ?_, ?_⟩
  · exact (θ_run Cert.KernelIdeal.defs _ _).mono
      (fun r h c => ⟨(h c).1.trans (Cert.KernelIdeal.Chain.result_eq m ρ c), (h c).2⟩)
      (Cert.KernelIdeal.ValueRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v6_eq, Cert.ReferenceIdeal.RefValue.stage6,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
